-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S65536x256 : Shape := ⟨2, ![65536, 256]⟩
abbrev S65536x1 : Shape := ⟨2, ![65536, 1]⟩
abbrev S4096x256 : Shape := ⟨2, ![4096, 256]⟩
abbrev S4096x1 : Shape := ⟨2, ![4096, 1]⟩
abbrev S4096 : Shape := ⟨1, ![4096]⟩

abbrev nBuf : Space → Nat
  | .hbm => 3
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x1, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x1, .f32⟩
  | .local _ .vmem, ⟨5, _⟩ => ⟨S4096x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S65536x1.size a
  hwx0_2 : ∀ i : grid0.Coords, EltTy.bits .f32 = 32 ∨ (Rect.block (s := S65536x1) S4096x1.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x256 : Shape := ⟨2, ![65536, 256]⟩
abbrev S_ : Shape := ⟨0, ![]⟩
abbrev S65536 : Shape := ⟨1, ![65536]⟩
abbrev S65536x1 : Shape := ⟨2, ![65536, 1]⟩

abbrev nBuf : Space → Nat
  | .hbm => 7
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)

variable [Facts₀]

class Facts : Prop extends Facts₀ where

variable [Facts]
-- ==== Proof.NegRowDot.lean ====
/-
  The function both programs compute. For two arrays q, d of shape [65536, 256] over the extended reals, the
  [65536, 1] array whose entry (r, 0) is the negated dot product of row r of q with row r of d:

      negRowDot q d (r, 0) = −∑ₖ q(r, k) · d(r, k),   k over the 256 columns.

  The kernel spells the negation as a subtraction from zero, 0 − s, and the reference starts its sum from zero and
  negates, −(0 + s). Both are −s for EVERY extended real s, the infinities included: no finiteness is needed, since
  only the neutrality of zero for addition is used, never a cancellation or a distributive law.
-/
import Idealize.ShloMosaic.PureOps.Ideal
import Idealize.ShloMosaic.Lib.ValueIdx

noncomputable section

open Idealize.ShloMosaic Idealize.ShloMosaic.ValueIdx
open scoped BigOperators

namespace Cert.RowDot

/-- The shape of the two argument arrays: 65536 rows of 256 columns. -/
abbrev SArr : Shape := ⟨2, ![65536, 256]⟩
/-- The shape of the result: one column of 65536 rows. -/
abbrev SOut : Shape := ⟨2, ![65536, 1]⟩

/-- The row an index of the result stands on. -/
abbrev rowOf (i : SOut.Idx) : Fin 65536 := ⟨(i 0).val, (i 0).isLt⟩

/-- The negated row-wise dot product of `q` and `d`: at (r, 0) it is −∑ₖ q(r,k)·d(r,k). -/
def negRowDot (q d : SArr.Idx → EReal) : SOut.Idx → EReal :=
  fun i => -(∑ k : Fin 256, q (ix2 (rowOf i) k) * d (ix2 (rowOf i) k))

theorem negRowDot_apply (q d : SArr.Idx → EReal) (i : SOut.Idx) :
    negRowDot q d i = -(∑ k : Fin 256, q (ix2 (rowOf i) k) * d (ix2 (rowOf i) k)) := rfl

/-- Subtracting from zero negates, on every extended real. -/
theorem zero_sub_eq_neg (s : EReal) : (0 : EReal) - s = -s := by
  rw [sub_eq_add_neg, zero_add]

/-- A sum started from zero and then negated is the negated sum, on every extended real. -/
theorem neg_zero_add (s : EReal) : -((0 : EReal) + s) = -s := by
  rw [zero_add]

end Cert.RowDot

end
-- ==== Proof.ReferenceRowDot.lean ====
/-
  The reference, read index by index, is the negated row-wise dot product.

  Its five host operations are: the elementwise product q·d; the constant 0; the sum of the product over the column
  axis started from that 0; a re-laying of the [65536] vector of sums as a [65536, 1] column; the negation. At the
  entry (r, 0) of the result this is −(0 + ∑ₖ q(r,k)·d(r,k)), which is −∑ₖ q(r,k)·d(r,k).
-/
import proofs.«138061_j26946624815702_1_alg».proof.Proof.Gen.ReferenceIdeal.Read
import proofs.«138061_j26946624815702_1_alg».proof.Proof.NegRowDot

noncomputable section

open Idealize.ShloMosaic Idealize.ShloMosaic.TcCoe Idealize.ShloMosaic.ValueIdx
open scoped BigOperators

namespace Cert.ReferenceIdeal.RowDot

open Cert.ReferenceIdeal Cert.ReferenceIdeal.Read Cert.RowDot

/-- The column index the reference's sum reads at result index `i` and summation index `k` is (row of i, k). -/
theorem sum_index (i : S65536x1.Idx) (k : Fin 256) : idx_main_v1 (idx_main_v2 i) k = ix2 (rowOf i) k :=
  funext fun a => Fin.ext (by match a with | ⟨0, _⟩ => rfl | ⟨1, _⟩ => rfl)

/-- The reference's last stage, as a function of the two argument arrays, is `negRowDot`. -/
theorem reference_eq (q d : (⟨S65536x256, .f32⟩ : BufTy).Contents (Elt Ideal)) :
    val_main_v3 (F := Ideal) q d = negRowDot q d := by
  funext i
  rw [val_main_v3_apply, val_main_v2_apply, val_main_v1_apply, val_main_cst_apply]
  simp only [val_main_v0_apply, sum_index, Ideal.hostNegf_def, Ideal.negf_def, Ideal.mulf_def, Ideal.ofBits_def,
    Ideal.ofBits_zero_f32]
  exact neg_zero_add _

end Cert.ReferenceIdeal.RowDot

end
-- ==== Proof.KernelRowDot.lean ====
/-
  The kernel's result array is the negated row-wise dot product.

  The grid has 16 points. Point t loads rows 4096·t … 4096·t + 4095 of each argument array as a [4096, 256] block,
  multiplies the two blocks entry by entry, sums each row over its 256 columns, re-lays the [4096] vector of sums as a
  [4096, 1] column, subtracts it from zero, and writes that column back as rows 4096·t … 4096·t + 4095 of the result.
  So entry (p, 0) of the block written at point t is 0 − ∑ₖ q(4096·t + p, k)·d(4096·t + p, k), which is entry
  (4096·t + p, 0) of `negRowDot`; and the 16 blocks tile the 65536 rows, row r lying in the block of point r / 4096.
-/
import proofs.«138061_j26946624815702_1_alg».proof.Proof.Gen.KernelIdeal.Value
import proofs.«138061_j26946624815702_1_alg».proof.Proof.NegRowDot
import Idealize.ShloMosaic.Lib.Pipeline.Value
import Idealize.ShloMosaic.PureOps.Ideal.Laws
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.RowDot

open Cert.KernelIdeal Cert.KernelIdeal.Gen Cert.KernelIdeal.Value Cert.RowDot

variable (m : (ℓ : Loc nD τ sig) → Buf (Elt Ideal) ℓ) (ρ : Dev nD → PrngReg)

theorem zero_offsets : (![0, 0] : Fin 2 → Nat) = fun _ => 0 := funext fun a => by fin_cases a <;> rfl

/-! ## One block -/

/-- The row of a block a column index of the block stands on. -/
abbrev blockRow (y : S4096x1.Idx) : Fin 4096 := ⟨(y 0).val, (y 0).isLt⟩

/-- The sum over the column axis of the product of two [4096, 256] blocks, at row `y`, is ∑ₖ P0(y,k)·P1(y,k). -/
theorem row_sum (P0 P1 : Vec Ideal S4096x256 .f32) (y : S4096x1.Idx) :
    multiReduction (F := Ideal) .add [1] S4096 (mulf P0 P1) 0x00000000#32 reduces_S4096x256_S4096 (.inl rfl) rfl (ix2_0 y)
      = ∑ k : Fin 256, P0 (ix2 (blockRow y) k) * P1 (ix2 (blockRow y) k) := by
  refine (Ideal.multiReduction_add_single (mulf P0 P1) 0x00000000#32 reduces_S4096x256_S4096 (.inl rfl) rfl (ix2_0 y)).trans ?_
  refine Finset.sum_congr rfl fun k _ => ?_
  have e : reduces_S4096x256_S4096.lift (ix2_0 y) k = ix2 (blockRow y) k :=
    funext fun a => Fin.ext (by match a with | ⟨0, _⟩ => rfl | ⟨1, _⟩ => rfl)
  rw [e]
  rfl

/-- What the body leaves at entry `y` of its [4096, 1] output block: zero minus the row's sum of products, that is
    the negated dot product of row `y` of the two loaded blocks. -/
theorem block_apply (P0 P1 : Vec Ideal S4096x256 .f32) (y : S4096x1.Idx) :
    E2 (F := Ideal) P0 P1 y = -(∑ k : Fin 256, P0 (ix2 (blockRow y) k) * P1 (ix2 (blockRow y) k)) := by
  refine (congrArg (fun s : EReal => FloatOps.subf (F := Ideal) (φ := .f32) (Scalar.ofBits (F := Ideal) .f32 0x00000000#32) s)
    (row_sum P0 P1 y)).trans ?_
  show Ideal.ofBits .f32 0x00000000#32 - _ = -_
  rw [Ideal.ofBits_zero_f32]
  exact zero_sub_eq_neg _

/-! ## The blocks as rows of the arrays -/

/-- The three index maps over the 16 grid points: each window's block index is (t, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (p, k) of the first argument's block at point t is entry (4096·t + p, k) of the array. -/
theorem query_block (c : Dev nD) (t : Fin cfg0.N) (p : Fin 4096) (k : Fin 256) (r : Fin 65536)
    (hr : r.val = t.val * 4096 + p.val) :
    (iblk m c 0 t : Vec Ideal S4096x256 .f32) (ix2 p k) = (V m c main_arg0 : S65536x256.Idx → EReal) (ix2 r k) := by
  obtain ⟨e0, e1, -, -, -, -⟩ := block_index t
  unfold iblk
  rw [View.read_apply]
  show V m c main_arg0 _ = V m c main_arg0 _
  congr 1
  funext a
  apply Fin.ext
  match a with
  | ⟨0, _⟩ => show win0_0.index t (0 : Fin 2) * 4096 + 1 * p.val = r.val; rw [e0, hr]; omega
  | ⟨1, _⟩ => show win0_0.index t (1 : Fin 2) * 256 + 1 * k.val = k.val; rw [e1]; omega

/-- Entry (p, k) of the second argument's block at point t is entry (4096·t + p, k) of the array. -/
theorem doc_block (c : Dev nD) (t : Fin cfg0.N) (p : Fin 4096) (k : Fin 256) (r : Fin 65536)
    (hr : r.val = t.val * 4096 + p.val) :
    (iblk m c 1 t : Vec Ideal S4096x256 .f32) (ix2 p k) = (V m c main_arg1 : S65536x256.Idx → EReal) (ix2 r k) := by
  obtain ⟨-, -, e0, e1, -, -⟩ := block_index t
  unfold iblk
  rw [View.read_apply]
  show V m c main_arg1 _ = V m c main_arg1 _
  congr 1
  funext a
  apply Fin.ext
  match a with
  | ⟨0, _⟩ => show win0_1.index t (0 : Fin 2) * 4096 + 1 * p.val = r.val; rw [e0, hr]; omega
  | ⟨1, _⟩ => show win0_1.index t (1 : Fin 2) * 256 + 1 * k.val = k.val; rw [e1]; omega

/-! ## What a point writes back, and the whole array -/

/-- Point t writes back block t of `negRowDot` of the argument arrays. -/
theorem flushed_eq (c : Dev nD) (t : Fin cfg0.N) :
    (dats m 0 c).flushed 2 t
      = ((cfg0.win 2).blk t).view.read (Elt Ideal) (negRowDot (V m c main_arg0) (V m c main_arg1)) := by
  rw [flushed2]
  unfold out0_2
  simp only [View.ld_unit_zero (S := S4096x256) zero_offsets]
  obtain ⟨-, -, -, -, e0, e1⟩ := block_index t
  funext j
  show (View.canon [⟨r0_1, k0_pay1 (F := Ideal) (iblk m c 0 t) (iblk m c 1 t)⟩] : Vec Ideal S4096x1 .f32) j
    = negRowDot (V m c main_arg0) (V m c main_arg1) (((cfg0.win 2).blk t).view.emb j)
  refine (canon2_eq (F := Ideal) (iblk m c 0 t) (iblk m c 1 t) j).trans ?_
  refine (block_apply (iblk m c 0 t) (iblk m c 1 t) j).trans ?_
  rw [negRowDot_apply]
  have hrow : (rowOf (((cfg0.win 2).blk t).view.emb j)).val = t.val * 4096 + (blockRow j).val := by
    show win0_2.index t (0 : Fin 2) * 4096 + 1 * (j 0).val = t.val * 4096 + (j 0).val
    rw [e0]; omega
  refine congrArg Neg.neg (Finset.sum_congr rfl fun k _ => ?_)
  rw [query_block m c t (blockRow j) k _ hrow, doc_block m c t (blockRow j) k _ hrow]

/-- An index of the result is in point t's block iff each coordinate is in the block's range on its axis. -/
theorem mem_block (t : Fin cfg0.N) (i : S65536x1.Idx) :
    i ∈ ((cfg0.win 2).blk t).view.set ↔ ∀ a : Fin 2, win0_2.index t a * S4096x1.size a ≤ (i a).val
      ∧ (i a).val < win0_2.index t a * S4096x1.size a + S4096x1.size a := by
  show i ∈ ((View.whole main_v0).slice (win0_2.rect t)).set ↔ _
  rw [View.set_slice_whole, Rect.mem_set_unit]
  exact Iff.rfl

/-- Every one of the 16 row blocks is some point's. -/
theorem block_onto : ∀ b : Fin 16, ∃ t : Fin cfg0.N, win0_2.index t = ![b.val, 0] :=
  (by decide +kernel : ∀ b : Fin 16, ∃ t : Fin grid0.N, win0_2.index t = ![b.val, 0])

/-- The blocks tile the result: row r lies in the block of point r / 4096. -/
theorem cover (i : S65536x1.Idx) :
    ∃ t : Fin cfg0.N, (cfg0.win 2).flush t = true ∧ i ∈ ((cfg0.win 2).blk t).view.set := by
  have hi0 : (i 0).val < 65536 := (i 0).isLt
  have hi1 : (i 1).val < 1 := (i 1).isLt
  obtain ⟨t, ht⟩ := block_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 1 ≤ (i 1).val ∧ (i 1).val < win0_2.index t (1 : Fin 2) * 1 + 1
    omega

/-- After the run the result array is `negRowDot` of the argument arrays as launched. -/
theorem final (c : Dev nD) :
    (dats m 0 c).arrAt 2 cfg0.N
      = negRowDot (m ((c : Thread nD τ).loc main_arg0)) (m ((c : Thread nD τ).loc main_arg1)) :=
  (dats m 0 c).arrAt_eq_of_cover 2 (negRowDot (V m c main_arg0) (V m c main_arg1))
    (fun t _ => flushed_eq m c t) cover

/-- The kernel's run, read: every weakly fair execution terminates with the result array at `negRowDot` of the
    arguments and the arguments unchanged. -/
theorem run : θ_run defs (onTc (τ := τ) (main (F := Ideal))) ⟨m, fun _ => 0, ρ⟩ fun r => ∀ c : Dev nD,
      r.2.mem ((c : Thread nD τ).loc main_v0)
        = negRowDot (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.RowDot

end
-- ==== Proof.lean ====
/-
  The kernel computes, for query and document arrays q, d of shape [65536, 256], the [65536, 1] array of negated
  row-wise dot products, −∑ₖ q(r,k)·d(r,k), sixteen row blocks of 4096 rows at a time; the reference computes the same
  array with one elementwise product, one sum over the column axis and one negation.

  Over the extended reals the two are one function (`Cert.RowDot.negRowDot`): the kernel's entry is 0 − s and the
  reference's −(0 + s) for the same sum s of the same 256 products, and both are −s for every extended real s, so the
  precondition (finite inputs) is never opened. The kernel side reads the generated value leg (what each grid point
  writes back) block by block and tiles the result with the sixteen blocks; the reference side reads the generated run
  one operation at a time. The three frames are the generated ones, the reference's being its run with the result
  dropped; the idealization rewrote nothing, so `preserves` has nothing to state.
-/
import proofs.«138061_j26946624815702_1_alg».proof.Defs
import proofs.«138061_j26946624815702_1_alg».proof.Proof.Gen.Kernel
import proofs.«138061_j26946624815702_1_alg».proof.Proof.Gen.Kernel.Skeleton
import proofs.«138061_j26946624815702_1_alg».proof.Proof.Gen.Kernel.Launch
import proofs.«138061_j26946624815702_1_alg».proof.Proof.Gen.Kernel.Points
import proofs.«138061_j26946624815702_1_alg».proof.Proof.Gen.Kernel.Frame
import proofs.«138061_j26946624815702_1_alg».proof.Proof.Gen.KernelIdeal
import proofs.«138061_j26946624815702_1_alg».proof.Proof.Gen.KernelIdeal.Skeleton
import proofs.«138061_j26946624815702_1_alg».proof.Proof.Gen.KernelIdeal.Launch
import proofs.«138061_j26946624815702_1_alg».proof.Proof.Gen.KernelIdeal.Points
import proofs.«138061_j26946624815702_1_alg».proof.Proof.Gen.KernelIdeal.Frame
import proofs.«138061_j26946624815702_1_alg».proof.Proof.Gen.ReferenceIdeal
import proofs.«138061_j26946624815702_1_alg».proof.Proof.Gen.Pre_finite_inputs
import proofs.«138061_j26946624815702_1_alg».proof.Proof.Gen.KernelIdeal.Value
import proofs.«138061_j26946624815702_1_alg».proof.Proof.Gen.ReferenceIdeal.Run
import proofs.«138061_j26946624815702_1_alg».proof.Proof.Gen.ReferenceIdeal.Read
import proofs.«138061_j26946624815702_1_alg».proof.Proof.NegRowDot
import proofs.«138061_j26946624815702_1_alg».proof.Proof.ReferenceRowDot
import proofs.«138061_j26946624815702_1_alg».proof.Proof.KernelRowDot
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on q and d, both idealized programs end with the result array at `negRowDot q d`. -/
theorem algebraic : Cert.algebraic_KernelIdeal_ReferenceIdeal := by
  intro m ρ m' ρ' _ hagree
  refine ⟨fun c => Cert.RowDot.negRowDot
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowDot.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v3_eq, Cert.ReferenceIdeal.RowDot.reference_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
